-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S256x64 .f32) (main_arg10 : FVec F S256x64 .f32) (main_arg11 : FVec F S64 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg10
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S256x256 .f32) (main_arg7 : FVec F S256x256 .f32) (main_arg8 : FVec F S256 .f32) (main_arg9 : FVec F S256x64 .f32) (main_arg10 : FVec F S256x64 .f32) (main_arg11 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_v33

def fn {F : FTy → Type} [FloatOps F] (main_arg0 : FVec F S100000x256 .f32) (main_arg1 : IVec S800000 32) (main_arg2 : IVec S800000 32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S256x64 .f32) (main_arg10 : FVec F S256x64 .f32) (main_arg11 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S2000x256 : Shape := ⟨2, ![2000, 256]⟩
abbrev S1x256 : Shape := ⟨2, ![1, 256]⟩
abbrev S100000x64 : Shape := ⟨2, ![100000, 64]⟩
abbrev S2000x64 : Shape := ⟨2, ![2000, 64]⟩
abbrev S1x64 : Shape := ⟨2, ![1, 64]⟩

abbrev nBuf : Space → Nat
  | .hbm => 75
  | .vmem => 27
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S256x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S_, .f32⟩
  | .hbm, ⟨34, _⟩ => ⟨S100000x256, .f32⟩
  | .hbm, ⟨35, _⟩ => ⟨S800000x1, .i32⟩
  | .hbm, ⟨36, _⟩ => ⟨S100000x256, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S100000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S100000x256, .f32⟩
  | .hbm, ⟨52, _⟩ => ⟨S800000x1, .i32⟩
  | .hbm, ⟨53, _⟩ => ⟨S100000x256, .f32⟩
  | .hbm, ⟨54, _⟩ => ⟨S100000x1, .f32⟩
  | .hbm, ⟨55, _⟩ => ⟨S100000x256, .f32⟩
  | .hbm, ⟨56, _⟩ => ⟨S100000x256, .f32⟩
  | .hbm, ⟨57, _⟩ => ⟨S100000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S100000x256, .f32⟩
  | .hbm, ⟨69, _⟩ => ⟨S800000x1, .i32⟩
  | .hbm, ⟨70, _⟩ => ⟨S100000x256, .f32⟩
  | .hbm, ⟨71, _⟩ => ⟨S100000x1, .f32⟩
  | .hbm, ⟨72, _⟩ => ⟨S100000x256, .f32⟩
  | .hbm, ⟨73, _⟩ => ⟨S100000x256, .f32⟩
  | .hbm, ⟨74, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x64, .f32⟩
  | .local _ .vmem, ⟨23, _⟩ => ⟨S256x64, .f32⟩
  | .local _ .vmem, ⟨24, _⟩ => ⟨S64, .f32⟩
  | .local _ .vmem, ⟨25, _⟩ => ⟨S2000x64, .f32⟩
  | .local _ .vmem, ⟨26, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S1x256 : Shape := ⟨2, ![1, 256]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S256x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S_, .f32⟩
  | .hbm, ⟨34, _⟩ => ⟨S100000x256, .f32⟩
  | .hbm, ⟨35, _⟩ => ⟨S800000x1, .i32⟩
  | .hbm, ⟨36, _⟩ => ⟨S100000x256, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S1x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S100000x256, .f32⟩
  | .hbm, ⟨60, _⟩ => ⟨S800000x1, .i32⟩
  | .hbm, ⟨61, _⟩ => ⟨S100000x256, .f32⟩
  | .hbm, ⟨62, _⟩ => ⟨S100000x1, .f32⟩
  | .hbm, ⟨63, _⟩ => ⟨S100000x256, .f32⟩
  | .hbm, ⟨64, _⟩ => ⟨S100000x256, .f32⟩
  | .hbm, ⟨65, _⟩ => ⟨S100000x256, .f32⟩
  | .hbm, ⟨66, _⟩ => ⟨S100000x256, .f32⟩
  | .hbm, ⟨67, _⟩ => ⟨S100000x256, .f32⟩
  | .hbm, ⟨68, _⟩ => ⟨S1x256, .f32⟩
  | .hbm, ⟨69, _⟩ => ⟨S100000x256, .f32⟩
  | .hbm, ⟨70, _⟩ => ⟨S100000x256, .f32⟩
  | .hbm, ⟨71, _⟩ => ⟨S_, .f32⟩
  | .hbm, ⟨72, _⟩ => ⟨S100000x256, .f32⟩
  | .hbm, ⟨73, _⟩ => ⟨S100000x256, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x256, .f32⟩
  | .hbm, ⟨83, _⟩ => ⟨S_, .f32⟩
  | .hbm, ⟨84, _⟩ => ⟨S100000x256, .f32⟩
  | .hbm, ⟨85, _⟩ => ⟨S800000x1, .i32⟩
  | .hbm, ⟨86, _⟩ => ⟨S100000x256, .f32⟩
  | .hbm, ⟨87, _⟩ => ⟨S100000x1, .f32⟩
  | .hbm, ⟨88, _⟩ => ⟨S100000x256, .f32⟩
  | .hbm, ⟨89, _⟩ => ⟨S100000x256, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Layer.lean ====
/-
  One graph-convolution layer as ONE function of whole arrays, index by index, on the extended reals.
  For node features `h` and aggregated neighbour features `a` (both `[M, K]`), weights `ws`, `wn` (`[K, N]`) and a bias
  `b` (`[N]`), `lin h a ws wn b` holds at `(r, q)`
      (Σ_k h(r, k) · ws(k, q)  +  Σ_k a(r, k) · wn(k, q))  +  b(q),
  and `linRelu` is its maximum with zero. Row `r` of the result reads only row `r` of `h` and of `a`: that is why a
  block of rows of the result is the same formula over the same block of rows of the two inputs (`lin_rows`,
  `linRelu_rows`), whatever the block height.
  Both programs' layer operations are read here at an index: the device's two products into zero accumulators added,
  the bias row broadcast over the rows, the maximum with a zero splat (`dev_lin_apply`, `dev_linRelu_apply`), and the
  host's two `dot_general`s added, the bias broadcast in two steps, the maximum with a broadcast zero
  (`host_lin`, `host_linRelu`). A change of float format is the identity on the extended reals, and a sum into the
  zero accumulator is the sum, so no law beyond reading each operation at its index is used.
-/
import Idealize.ShloMosaic.Lib.ValueIdx
import Idealize.ShloMosaic.Lib.ValueLayout
import Idealize.ShloMosaic.Lib.Pipeline.Value
import Idealize.ShloMosaic.PureOps.Ideal.Laws
import proofs.«142388_j4020089389331_1_alg».proof.Proof.LibPlainDot

noncomputable section

namespace Cert.Sage

open Idealize.ShloMosaic Idealize.ShloMosaic.ValueIdx

variable {M K N : ℕ}

/-- The layer before its activation: self term plus neighbour term plus bias, at every `(r, q)`. -/
def lin (h a : FVec Ideal ⟨2, ![M, K]⟩ .f32) (ws wn : FVec Ideal ⟨2, ![K, N]⟩ .f32) (b : FVec Ideal ⟨1, ![N]⟩ .f32) :
    FVec Ideal ⟨2, ![M, N]⟩ .f32 :=
  fun i => (∑ k : Fin K, h (ix2 (i 0) k) * ws (ix2 k (i 1)) + ∑ k : Fin K, a (ix2 (i 0) k) * wn (ix2 k (i 1))) + b (ix1 (i 1))

/-- The layer with its activation: the maximum of `lin` and zero. -/
def linRelu (h a : FVec Ideal ⟨2, ![M, K]⟩ .f32) (ws wn : FVec Ideal ⟨2, ![K, N]⟩ .f32) (b : FVec Ideal ⟨1, ![N]⟩ .f32) :
    FVec Ideal ⟨2, ![M, N]⟩ .f32 :=
  fun i => max (lin h a ws wn b i) (Ideal.ofBits .f32 0x00000000#32)

theorem lin_apply (h a : FVec Ideal ⟨2, ![M, K]⟩ .f32) (ws wn : FVec Ideal ⟨2, ![K, N]⟩ .f32) (b : FVec Ideal ⟨1, ![N]⟩ .f32)
    (r : Fin M) (q : Fin N) :
    lin h a ws wn b (ix2 r q)
      = (∑ k : Fin K, h (ix2 r k) * ws (ix2 k q) + ∑ k : Fin K, a (ix2 r k) * wn (ix2 k q)) + b (ix1 q) := rfl

theorem linRelu_apply (h a : FVec Ideal ⟨2, ![M, K]⟩ .f32) (ws wn : FVec Ideal ⟨2, ![K, N]⟩ .f32) (b : FVec Ideal ⟨1, ![N]⟩ .f32)
    (r : Fin M) (q : Fin N) :
    linRelu h a ws wn b (ix2 r q)
      = max ((∑ k : Fin K, h (ix2 r k) * ws (ix2 k q) + ∑ k : Fin K, a (ix2 r k) * wn (ix2 k q)) + b (ix1 q))
          (Ideal.ofBits .f32 0x00000000#32) := rfl

/-- A row of the layer over a block of rows is the row of the layer over the whole arrays it was cut from. -/
theorem lin_rows {Mb : ℕ} (h a : FVec Ideal ⟨2, ![M, K]⟩ .f32) (hb ab : FVec Ideal ⟨2, ![Mb, K]⟩ .f32)
    (ws wn : FVec Ideal ⟨2, ![K, N]⟩ .f32) (b : FVec Ideal ⟨1, ![N]⟩ .f32) (r : Fin M) (p : Fin Mb) (q : Fin N)
    (hh : ∀ k : Fin K, hb (ix2 p k) = h (ix2 r k)) (ha : ∀ k : Fin K, ab (ix2 p k) = a (ix2 r k)) :
    lin hb ab ws wn b (ix2 p q) = lin h a ws wn b (ix2 r q) := by
  rw [lin_apply, lin_apply]
  simp only [hh, ha]

theorem linRelu_rows {Mb : ℕ} (h a : FVec Ideal ⟨2, ![M, K]⟩ .f32) (hb ab : FVec Ideal ⟨2, ![Mb, K]⟩ .f32)
    (ws wn : FVec Ideal ⟨2, ![K, N]⟩ .f32) (b : FVec Ideal ⟨1, ![N]⟩ .f32) (r : Fin M) (p : Fin Mb) (q : Fin N)
    (hh : ∀ k : Fin K, hb (ix2 p k) = h (ix2 r k)) (ha : ∀ k : Fin K, ab (ix2 p k) = a (ix2 r k)) :
    linRelu hb ab ws wn b (ix2 p q) = linRelu h a ws wn b (ix2 r q) := by
  rw [linRelu_apply, linRelu_apply]
  simp only [hh, ha]

/-- Three layers composed over an aggregation `g` of node features: two hidden layers with activation, one output layer
    without. What both programs compute, for the same `g`. -/
def net (g : FVec Ideal ⟨2, ![M, K]⟩ .f32 → FVec Ideal ⟨2, ![M, K]⟩ .f32) (x : FVec Ideal ⟨2, ![M, K]⟩ .f32)
    (ws1 wn1 : FVec Ideal ⟨2, ![K, K]⟩ .f32) (b1 : FVec Ideal ⟨1, ![K]⟩ .f32)
    (ws2 wn2 : FVec Ideal ⟨2, ![K, K]⟩ .f32) (b2 : FVec Ideal ⟨1, ![K]⟩ .f32)
    (ws3 wn3 : FVec Ideal ⟨2, ![K, N]⟩ .f32) (b3 : FVec Ideal ⟨1, ![N]⟩ .f32) : FVec Ideal ⟨2, ![M, N]⟩ .f32 :=
  lin (linRelu (linRelu x (g x) ws1 wn1 b1) (g (linRelu x (g x) ws1 wn1 b1)) ws2 wn2 b2)
    (g (linRelu (linRelu x (g x) ws1 wn1 b1) (g (linRelu x (g x) ws1 wn1 b1)) ws2 wn2 b2)) ws3 wn3 b3

/-! ## The device's operations, read at an index -/

/-- Two products into zero accumulators added, plus the bias as one row broadcast over the rows. -/
theorem dev_lin_apply (d : DotDims ⟨2, ![M, K]⟩ ⟨2, ![K, N]⟩ ⟨2, ![M, N]⟩) (hd : d = DotDims.plain M K N)
    (prec : Option ContractPrecision) {φ : FTy} (l₁ l₂ : FVec Ideal ⟨2, ![M, K]⟩ φ) (r₁ r₂ : FVec Ideal ⟨2, ![K, N]⟩ φ)
    (b : FVec Ideal ⟨1, ![N]⟩ .f32)
    (hc : (⟨1, ![N]⟩ : Shape).ShapeCasts ⟨2, ![1, N]⟩) (hbr : (⟨2, ![1, N]⟩ : Shape).Broadcasts ⟨2, ![M, N]⟩)
    (p : Fin M) (q : Fin N) :
    addf (addf (matmul d prec l₁ r₁ (constant ⟨2, ![M, N]⟩ .f32 0x00000000#32))
               (matmul d prec l₂ r₂ (constant ⟨2, ![M, N]⟩ .f32 0x00000000#32)))
         (broadcastTo ⟨2, ![M, N]⟩ (shapeCast ⟨2, ![1, N]⟩ b hc) hbr) (ix2 p q)
      = (∑ k : Fin K, l₁ (ix2 p k) * r₁ (ix2 k q) + ∑ k : Fin K, l₂ (ix2 p k) * r₂ (ix2 k q)) + b (ix1 q) := by
  rw [addf_apply, addf_apply, PlainDot.matmul_zero_apply d hd, PlainDot.matmul_zero_apply d hd,
    broadcastTo_1b_ab_apply, shapeCast_a_1a_apply]

/-! ## The host's operations, read at an index -/

/-- A `[N]` row broadcast to `[1, N]` along axis 1 and then to `[M, N]` reads, at `(p, q)`, the row at `q`. -/
theorem host_bias_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl)]
  rw [broadcastInDim_apply ![1] h1 _ (ix2 (0 : Fin 1) q) (ix1 q) (fun ax => by
      match ax with
      | ⟨0, _⟩ =>
        show q.val = if N = 1 then 0 else q.val
        split
        · have := q.isLt; omega
        · rfl)]

/-- The host's layer before the activation is `lin`. -/
theorem host_lin (d : DotDims ⟨2, ![M, K]⟩ ⟨2, ![K, N]⟩ ⟨2, ![M, N]⟩) (hd : d = DotDims.plain M K N)
    (prec : Option ContractPrecision) (h a : FVec Ideal ⟨2, ![M, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d prec h ws) (Host.dotGeneral d prec a wn))
         (broadcastInDim ⟨2, ![M, N]⟩ ![0, 1] h2 (broadcastInDim ⟨2, ![1, N]⟩ ![1] h1 b))
      = lin h a ws wn b := by
  funext i
  obtain ⟨p, q, rfl⟩ : ∃ (p : Fin M) (q : Fin N), i = ix2 p q := ⟨i 0, i 1, eq_ix2 i⟩
  rw [addf_apply, addf_apply, PlainDot.dotGeneral_apply d hd, PlainDot.dotGeneral_apply d hd, host_bias_apply, lin_apply]

/-- The host's layer with its activation (the maximum with a broadcast zero) is `linRelu`. -/
theorem host_linRelu (d : DotDims ⟨2, ![M, K]⟩ ⟨2, ![K, N]⟩ ⟨2, ![M, N]⟩) (hd : d = DotDims.plain M K N)
    (prec : Option ContractPrecision) (h a : FVec Ideal ⟨2, ![M, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral d prec h ws) (Host.dotGeneral d prec a wn))
                (broadcastInDim ⟨2, ![M, N]⟩ ![0, 1] h2 (broadcastInDim ⟨2, ![1, N]⟩ ![1] h1 b)))
             (broadcastInDim ⟨2, ![M, N]⟩ ![] h0 (constant (F := Ideal) ⟨0, ![]⟩ .f32 0x00000000#32))
      = linRelu h a ws wn b := by
  rw [host_lin d hd prec h a ws wn b h1 h2]
  funext i
  rw [maximumf_apply]
  rfl

end Cert.Sage

end
-- ==== Proof.KLayer0.lean ====
/-
  What pallas_call 0 leaves in its result array, as ONE function of the arrays it finds at its entry.
  The grid has 50 points; point `t` is handed rows `2000·t … 2000·t + 1999` of the node features and of the aggregated
  neighbour features, the two whole weight matrices and the whole bias, and writes back rows `2000·t … 2000·t + 1999`
  of the result. Its body computes, at `(p, q)` of the block, the layer's formula over row `p` of its two input
  blocks (`pay_apply`); row `p` of a block is row `2000·t + p` of the array (`blk_h`, `blk_a`), the weights' and the
  bias's one block is the whole array (`blk_ws`, `blk_wn`, `blk_b`); so what point `t` writes back is block `t` of
  `Sage.linRelu` of the entry arrays (`flushed_eq`). Every row lies in exactly the block of point `row / 2000`
  (`cover`), hence the array ends holding `Sage.linRelu` of the entry arrays (`arr_eq`) — for ANY entry contents `V`.
-/
import proofs.«142388_j4020089389331_1_alg».proof.Proof.KernelIdealFrameP
import proofs.«142388_j4020089389331_1_alg».proof.Proof.Layer
import Idealize.ShloMosaic.Lib.Pipeline.Value
import Idealize.ShloMosaic.Lib.ValueIdx

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The five arrays the region reads, at their literal types. -/
abbrev hArr (c : Dev nD) : FVec Ideal S100000x256 .f32 := V c main_arg0
abbrev aArr (c : Dev nD) : FVec Ideal S100000x256 .f32 := V c main_v20
abbrev wsArr (c : Dev nD) : FVec Ideal S256x256 .f32 := V c main_arg3
abbrev wnArr (c : Dev nD) : FVec Ideal S256x256 .f32 := V c main_arg4
abbrev bArr (c : Dev nD) : FVec Ideal S256 .f32 := V c main_arg5

/-- The layer of the entry arrays: what the result array ends holding. -/
def out (c : Dev nD) : FVec Ideal S100000x256 .f32 :=
  Sage.linRelu (hArr V c) (aArr V c) (wsArr V c) (wnArr V c) (bArr V c)

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)` is the layer's formula over its loaded blocks. -/
theorem pay_apply (x0 x1 : Vec Ideal S2000x256 .f32) (x2 x3 : Vec Ideal S256x256 .f32) (x4 : Vec Ideal S256 .f32)
    (p : Fin 2000) (q : Fin 256) :
    k0_pay1 x0 x1 x2 x3 x4 (ix2 p q) = Sage.linRelu (M := 2000) x0 x1 x2 x3 x4 (ix2 p q) := by
  unfold k0_pay1
  rw [maximumf_apply, Sage.dev_lin_apply dot_S2000x256_S256x256_S2000x256_1_0_0_1_n_n rfl, broadcast_apply, Sage.linRelu_apply]
  simp only [truncf_apply, shapeCast_self]
  rfl

/-- The block indices of the six windows at a point, decided over the grid: the row-tiled windows sit at block `t`, the
    others at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block is row `2000·t + p` of the array. -/
def row (t : Fin cfg0.N) (p : Fin 2000) : Fin 100000 :=
  ⟨2000 * t.val + p.val, by have h : t.val < 50 := lt_of_lt_of_eq t.isLt N_0; have := p.isLt; omega⟩

theorem blk_h (c : Dev nD) (t : Fin cfg0.N) (p : Fin 2000) (k : Fin 256) :
    (iblk0 V c 0 t : Vec Ideal S2000x256 .f32) (ix2 p k) = hArr V c (ix2 (row t p) k) := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 2000 + 1 * p.val = 2000 * t.val + p.val; rw [e0]; omega
  | ⟨1, _⟩ => show win0_0.index t (1 : Fin 2) * 256 + 1 * k.val = k.val; rw [e1]; omega

theorem blk_a (c : Dev nD) (t : Fin cfg0.N) (p : Fin 2000) (k : Fin 256) :
    (iblk0 V c 1 t : Vec Ideal S2000x256 .f32) (ix2 p k) = aArr V c (ix2 (row t p) k) := by
  obtain ⟨-, -, e0, e1, -⟩ := idx_facts t
  unfold iblk0
  rw [View.read_apply]
  show V c main_v20 _ = V c main_v20 _
  refine congrArg _ ?_
  funext a
  apply Fin.ext
  match a with
  | ⟨0, _⟩ => show win0_1.index t (0 : Fin 2) * 2000 + 1 * p.val = 2000 * t.val + p.val; rw [e0]; omega
  | ⟨1, _⟩ => show win0_1.index t (1 : Fin 2) * 256 + 1 * k.val = k.val; rw [e1]; omega

theorem blk_ws (c : Dev nD) (t : Fin cfg0.N) : (iblk0 V c 2 t : Vec Ideal S256x256 .f32) = wsArr V c := by
  obtain ⟨-, -, -, -, e0, e1, -⟩ := idx_facts t
  funext j
  unfold iblk0
  rw [View.read_apply]
  show V c main_arg3 _ = V c main_arg3 j
  refine congrArg _ ?_
  funext a
  apply Fin.ext
  match a with
  | ⟨0, _⟩ => show win0_2.index t (0 : Fin 2) * 256 + 1 * (j 0).val = (j 0).val; rw [e0]; omega
  | ⟨1, _⟩ => show win0_2.index t (1 : Fin 2) * 256 + 1 * (j 1).val = (j 1).val; rw [e1]; omega

theorem blk_wn (c : Dev nD) (t : Fin cfg0.N) : (iblk0 V c 3 t : Vec Ideal S256x256 .f32) = wnArr V c := by
  obtain ⟨-, -, -, -, -, -, e0, e1, -⟩ := idx_facts t
  funext j
  unfold iblk0
  rw [View.read_apply]
  show V c main_arg4 _ = V c main_arg4 j
  refine congrArg _ ?_
  funext a
  apply Fin.ext
  match a with
  | ⟨0, _⟩ => show win0_3.index t (0 : Fin 2) * 256 + 1 * (j 0).val = (j 0).val; rw [e0]; omega
  | ⟨1, _⟩ => show win0_3.index t (1 : Fin 2) * 256 + 1 * (j 1).val = (j 1).val; rw [e1]; omega

theorem blk_b (c : Dev nD) (t : Fin cfg0.N) : (iblk0 V c 4 t : Vec Ideal S256 .f32) = bArr V c := by
  obtain ⟨-, -, -, -, -, -, -, -, e0, -⟩ := idx_facts t
  funext j
  unfold iblk0
  rw [View.read_apply]
  show V c main_arg5 _ = V c main_arg5 j
  refine congrArg _ ?_
  funext a
  apply Fin.ext
  match a with
  | ⟨0, _⟩ => show win0_4.index t (0 : Fin 1) * 256 + 1 * (j 0).val = (j 0).val; rw [e0]; omega

/-- Where the element `(p, q)` of point `t`'s result block sits in the result array. -/
theorem emb_out (t : Fin cfg0.N) (p : Fin 2000) (q : Fin 256) :
    ((cfg0.win 5).blk t).view.emb (ix2 p q) = ix2 (row t p) q := by
  obtain ⟨-, -, -, -, -, -, -, -, -, e0, e1⟩ := idx_facts t
  funext a
  apply Fin.ext
  match a with
  | ⟨0, _⟩ => show win0_5.index t (0 : Fin 2) * 2000 + 1 * p.val = 2000 * t.val + p.val; rw [e0]; omega
  | ⟨1, _⟩ => show win0_5.index t (1 : Fin 2) * 256 + 1 * q.val = q.val; rw [e1]; omega

/-- WHAT POINT `t` WRITES BACK is block `t` of the layer of the entry arrays. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz2]
  simp only [View.ld_unit_zero (S := S2000x256) hz2, View.ld_unit_zero (S := S256x256) hz2, View.ld_unit_zero (S := S256) hz1]
  rw [blk_ws V c t, blk_wn V c t, blk_b V c t]
  funext j
  obtain ⟨p, q, rfl⟩ : ∃ (p : Fin 2000) (q : Fin 256), j = ix2 p q := ⟨j 0, j 1, eq_ix2 j⟩
  rw [View.read_apply, emb_out t p q]
  refine (pay_apply (iblk0 V c 0 t) (iblk0 V c 1 t) (wsArr V c) (wnArr V c) (bArr V c) p q).trans ?_
  unfold out
  exact Sage.linRelu_rows (hArr V c) (aArr V c) (iblk0 V c 0 t) (iblk0 V c 1 t) (wsArr V c) (wnArr V c) (bArr V c) (row t p) p q
    (fun k => blk_h V c t p k) (fun k => blk_a V c t p k)

/-- An index of the result array is in point `t`'s block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v21).slice (win0_5.rect t)).set ↔ _
  rw [View.set_slice_whole, Rect.mem_set_unit]
  exact Iff.rfl

/-- Every index of the result array is in the block of the point its row falls in. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  obtain ⟨-, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- THE RESULT ARRAY after the region: the layer of the arrays the region was entered with. -/
theorem arr_eq (c : Dev nD) : (dat0 V c).arrAt 5 cfg0.N = out V c :=
  (dat0 V c).arrAt_eq_of_cover 5 (out V c) (fun t _ => flushed_eq V c t) cover

end Cert.KernelIdeal.Layer0

end
-- ==== Proof.KLayer1.lean ====
/-
  What pallas_call 1 leaves in its result array, as ONE function of the arrays it finds at its entry.
  The grid has 50 points; point `t` is handed rows `2000·t … 2000·t + 1999` of the node features and of the aggregated
  neighbour features, the two whole weight matrices and the whole bias, and writes back rows `2000·t … 2000·t + 1999`
  of the result. Its body computes, at `(p, q)` of the block, the layer's formula over row `p` of its two input
  blocks (`pay_apply`); row `p` of a block is row `2000·t + p` of the array (`blk_h`, `blk_a`), the weights' and the
  bias's one block is the whole array (`blk_ws`, `blk_wn`, `blk_b`); so what point `t` writes back is block `t` of
  `Sage.linRelu` of the entry arrays (`flushed_eq`). Every row lies in exactly the block of point `row / 2000`
  (`cover`), hence the array ends holding `Sage.linRelu` of the entry arrays (`arr_eq`) — for ANY entry contents `V`.
-/
import proofs.«142388_j4020089389331_1_alg».proof.Proof.KernelIdealFrameP
import proofs.«142388_j4020089389331_1_alg».proof.Proof.Layer
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The five arrays the region reads, at their literal types. -/
abbrev hArr (c : Dev nD) : FVec Ideal S100000x256 .f32 := V c main_v21
abbrev aArr (c : Dev nD) : FVec Ideal S100000x256 .f32 := V c main_v34
abbrev wsArr (c : Dev nD) : FVec Ideal S256x256 .f32 := V c main_arg6
abbrev wnArr (c : Dev nD) : FVec Ideal S256x256 .f32 := V c main_arg7
abbrev bArr (c : Dev nD) : FVec Ideal S256 .f32 := V c main_arg8

/-- The layer of the entry arrays: what the result array ends holding. -/
def out (c : Dev nD) : FVec Ideal S100000x256 .f32 :=
  Sage.linRelu (hArr V c) (aArr V c) (wsArr V c) (wnArr V c) (bArr V c)

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)` is the layer's formula over its loaded blocks. -/
theorem pay_apply (x0 x1 : Vec Ideal S2000x256 .f32) (x2 x3 : Vec Ideal S256x256 .f32) (x4 : Vec Ideal S256 .f32)
    (p : Fin 2000) (q : Fin 256) :
    k1_pay1 x0 x1 x2 x3 x4 (ix2 p q) = Sage.linRelu (M := 2000) x0 x1 x2 x3 x4 (ix2 p q) := by
  unfold k1_pay1
  rw [maximumf_apply, Sage.dev_lin_apply dot_S2000x256_S256x256_S2000x256_1_0_0_1_n_n rfl, broadcast_apply, Sage.linRelu_apply]
  simp only [truncf_apply, shapeCast_self]
  rfl

/-- The block indices of the six windows at a point, decided over the grid: the row-tiled windows sit at block `t`, the
    others at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of point `t`'s block is row `2000·t + p` of the array. -/
def row (t : Fin cfg1.N) (p : Fin 2000) : Fin 100000 :=
  ⟨2000 * t.val + p.val, by have h : t.val < 50 := lt_of_lt_of_eq t.isLt N_1; have := p.isLt; omega⟩

theorem blk_h (c : Dev nD) (t : Fin cfg1.N) (p : Fin 2000) (k : Fin 256) :
    (iblk1 V c 0 t : Vec Ideal S2000x256 .f32) (ix2 p k) = hArr V c (ix2 (row t p) k) := by
  obtain ⟨e0, e1, -⟩ := idx_facts t
  unfold iblk1
  rw [View.read_apply]
  show V c main_v21 _ = V c main_v21 _
  refine congrArg _ ?_
  funext a
  apply Fin.ext
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

theorem blk_a (c : Dev nD) (t : Fin cfg1.N) (p : Fin 2000) (k : Fin 256) :
    (iblk1 V c 1 t : Vec Ideal S2000x256 .f32) (ix2 p k) = aArr V c (ix2 (row t p) k) := by
  obtain ⟨-, -, e0, e1, -⟩ := idx_facts t
  unfold iblk1
  rw [View.read_apply]
  show V c main_v34 _ = V c main_v34 _
  refine congrArg _ ?_
  funext a
  apply Fin.ext
  match a with
  | ⟨0, _⟩ => show win1_1.index t (0 : Fin 2) * 2000 + 1 * p.val = 2000 * t.val + p.val; rw [e0]; omega
  | ⟨1, _⟩ => show win1_1.index t (1 : Fin 2) * 256 + 1 * k.val = k.val; rw [e1]; omega

theorem blk_ws (c : Dev nD) (t : Fin cfg1.N) : (iblk1 V c 2 t : Vec Ideal S256x256 .f32) = wsArr V c := by
  obtain ⟨-, -, -, -, e0, e1, -⟩ := idx_facts t
  funext j
  unfold iblk1
  rw [View.read_apply]
  show V c main_arg6 _ = V c main_arg6 j
  refine congrArg _ ?_
  funext a
  apply Fin.ext
  match a with
  | ⟨0, _⟩ => show win1_2.index t (0 : Fin 2) * 256 + 1 * (j 0).val = (j 0).val; rw [e0]; omega
  | ⟨1, _⟩ => show win1_2.index t (1 : Fin 2) * 256 + 1 * (j 1).val = (j 1).val; rw [e1]; omega

theorem blk_wn (c : Dev nD) (t : Fin cfg1.N) : (iblk1 V c 3 t : Vec Ideal S256x256 .f32) = wnArr V c := by
  obtain ⟨-, -, -, -, -, -, e0, e1, -⟩ := idx_facts t
  funext j
  unfold iblk1
  rw [View.read_apply]
  show V c main_arg7 _ = V c main_arg7 j
  refine congrArg _ ?_
  funext a
  apply Fin.ext
  match a with
  | ⟨0, _⟩ => show win1_3.index t (0 : Fin 2) * 256 + 1 * (j 0).val = (j 0).val; rw [e0]; omega
  | ⟨1, _⟩ => show win1_3.index t (1 : Fin 2) * 256 + 1 * (j 1).val = (j 1).val; rw [e1]; omega

theorem blk_b (c : Dev nD) (t : Fin cfg1.N) : (iblk1 V c 4 t : Vec Ideal S256 .f32) = bArr V c := by
  obtain ⟨-, -, -, -, -, -, -, -, e0, -⟩ := idx_facts t
  funext j
  unfold iblk1
  rw [View.read_apply]
  show V c main_arg8 _ = V c main_arg8 j
  refine congrArg _ ?_
  funext a
  apply Fin.ext
  match a with
  | ⟨0, _⟩ => show win1_4.index t (0 : Fin 1) * 256 + 1 * (j 0).val = (j 0).val; rw [e0]; omega

/-- Where the element `(p, q)` of point `t`'s result block sits in the result array. -/
theorem emb_out (t : Fin cfg1.N) (p : Fin 2000) (q : Fin 256) :
    ((cfg1.win 5).blk t).view.emb (ix2 p q) = ix2 (row t p) q := by
  obtain ⟨-, -, -, -, -, -, -, -, -, e0, e1⟩ := idx_facts t
  funext a
  apply Fin.ext
  match a with
  | ⟨0, _⟩ => show win1_5.index t (0 : Fin 2) * 2000 + 1 * p.val = 2000 * t.val + p.val; rw [e0]; omega
  | ⟨1, _⟩ => show win1_5.index t (1 : Fin 2) * 256 + 1 * q.val = q.val; rw [e1]; omega

/-- WHAT POINT `t` WRITES BACK is block `t` of the layer of the entry arrays. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  rw [blk_ws V c t, blk_wn V c t, blk_b V c t]
  funext j
  obtain ⟨p, q, rfl⟩ : ∃ (p : Fin 2000) (q : Fin 256), j = ix2 p q := ⟨j 0, j 1, eq_ix2 j⟩
  rw [View.read_apply, emb_out t p q]
  refine (pay_apply (iblk1 V c 0 t) (iblk1 V c 1 t) (wsArr V c) (wnArr V c) (bArr V c) p q).trans ?_
  unfold out
  exact Sage.linRelu_rows (hArr V c) (aArr V c) (iblk1 V c 0 t) (iblk1 V c 1 t) (wsArr V c) (wnArr V c) (bArr V c) (row t p) p q
    (fun k => blk_h V c t p k) (fun k => blk_a V c t p k)

/-- An index of the result array is in point `t`'s block iff each coordinate is in the block's range on its axis. -/
theorem mem_blk (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v35).slice (win1_5.rect t)).set ↔ _
  rw [View.set_slice_whole, Rect.mem_set_unit]
  exact Iff.rfl

/-- Every index of the result array is in the block of the point its row falls in. -/
theorem cover (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 50 := N_1
  let t : Fin cfg1.N := ⟨(i 0).val / 2000, by rw [hN]; omega⟩
  obtain ⟨-, -, -, -, -, -, -, -, -, e0, e1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 256 ≤ (i 1).val ∧ (i 1).val < win1_5.index t (1 : Fin 2) * 256 + 256; rw [e1]; omega

/-- THE RESULT ARRAY after the region: the layer of the arrays the region was entered with. -/
theorem arr_eq (c : Dev nD) : (dat1 V c).arrAt 5 cfg1.N = out V c :=
  (dat1 V c).arrAt_eq_of_cover 5 (out V c) (fun t _ => flushed_eq V c t) cover

end Cert.KernelIdeal.Layer1

end
-- ==== Proof.KLayer2.lean ====
/-
  What pallas_call 2 leaves in its result array, as ONE function of the arrays it finds at its entry.
  The grid has 50 points; point `t` is handed rows `2000·t … 2000·t + 1999` of the node features and of the aggregated
  neighbour features, the two whole weight matrices and the whole bias, and writes back rows `2000·t … 2000·t + 1999`
  of the result. Its body computes, at `(p, q)` of the block, the layer's formula over row `p` of its two input
  blocks (`pay_apply`); row `p` of a block is row `2000·t + p` of the array (`blk_h`, `blk_a`), the weights' and the
  bias's one block is the whole array (`blk_ws`, `blk_wn`, `blk_b`); so what point `t` writes back is block `t` of
  `Sage.lin` of the entry arrays (`flushed_eq`). Every row lies in exactly the block of point `row / 2000`
  (`cover`), hence the array ends holding `Sage.lin` of the entry arrays (`arr_eq`) — for ANY entry contents `V`.
-/
import proofs.«142388_j4020089389331_1_alg».proof.Proof.KernelIdealFrameP
import proofs.«142388_j4020089389331_1_alg».proof.Proof.Layer
import Idealize.ShloMosaic.Lib.Pipeline.Value
import Idealize.ShloMosaic.Lib.ValueIdx

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The five arrays the region reads, at their literal types. -/
abbrev hArr (c : Dev nD) : FVec Ideal S100000x256 .f32 := V c main_v35
abbrev aArr (c : Dev nD) : FVec Ideal S100000x256 .f32 := V c main_v48
abbrev wsArr (c : Dev nD) : FVec Ideal S256x64 .f32 := V c main_arg9
abbrev wnArr (c : Dev nD) : FVec Ideal S256x64 .f32 := V c main_arg10
abbrev bArr (c : Dev nD) : FVec Ideal S64 .f32 := V c main_arg11

/-- The layer of the entry arrays: what the result array ends holding. -/
def out (c : Dev nD) : FVec Ideal S100000x64 .f32 :=
  Sage.lin (hArr V c) (aArr V c) (wsArr V c) (wnArr V c) (bArr V c)

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)` is the layer's formula over its loaded blocks. -/
theorem pay_apply (x0 x1 : Vec Ideal S2000x256 .f32) (x2 x3 : Vec Ideal S256x64 .f32) (x4 : Vec Ideal S64 .f32)
    (p : Fin 2000) (q : Fin 64) :
    k2_pay1 x0 x1 x2 x3 x4 (ix2 p q) = Sage.lin (M := 2000) x0 x1 x2 x3 x4 (ix2 p q) := by
  unfold k2_pay1
  rw [Sage.dev_lin_apply dot_S2000x256_S256x64_S2000x64_1_0_0_1_n_n rfl, Sage.lin_apply]
  simp only [truncf_apply, shapeCast_self]

/-- The block indices of the six windows at a point, decided over the grid: the row-tiled windows sit at block `t`, the
    others at block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of point `t`'s block is row `2000·t + p` of the array. -/
def row (t : Fin cfg2.N) (p : Fin 2000) : Fin 100000 :=
  ⟨2000 * t.val + p.val, by have h : t.val < 50 := lt_of_lt_of_eq t.isLt N_2; have := p.isLt; omega⟩

theorem blk_h (c : Dev nD) (t : Fin cfg2.N) (p : Fin 2000) (k : Fin 256) :
    (iblk2 V c 0 t : Vec Ideal S2000x256 .f32) (ix2 p k) = hArr V c (ix2 (row t p) k) := by
  obtain ⟨e0, e1, -⟩ := idx_facts t
  unfold iblk2
  rw [View.read_apply]
  show V c main_v35 _ = V c main_v35 _
  refine congrArg _ ?_
  funext a
  apply Fin.ext
  match a with
  | ⟨0, _⟩ => show win2_0.index t (0 : Fin 2) * 2000 + 1 * p.val = 2000 * t.val + p.val; rw [e0]; omega
  | ⟨1, _⟩ => show win2_0.index t (1 : Fin 2) * 256 + 1 * k.val = k.val; rw [e1]; omega

theorem blk_a (c : Dev nD) (t : Fin cfg2.N) (p : Fin 2000) (k : Fin 256) :
    (iblk2 V c 1 t : Vec Ideal S2000x256 .f32) (ix2 p k) = aArr V c (ix2 (row t p) k) := by
  obtain ⟨-, -, e0, e1, -⟩ := idx_facts t
  unfold iblk2
  rw [View.read_apply]
  show V c main_v48 _ = V c main_v48 _
  refine congrArg _ ?_
  funext a
  apply Fin.ext
  match a with
  | ⟨0, _⟩ => show win2_1.index t (0 : Fin 2) * 2000 + 1 * p.val = 2000 * t.val + p.val; rw [e0]; omega
  | ⟨1, _⟩ => show win2_1.index t (1 : Fin 2) * 256 + 1 * k.val = k.val; rw [e1]; omega

theorem blk_ws (c : Dev nD) (t : Fin cfg2.N) : (iblk2 V c 2 t : Vec Ideal S256x64 .f32) = wsArr V c := by
  obtain ⟨-, -, -, -, e0, e1, -⟩ := idx_facts t
  funext j
  unfold iblk2
  rw [View.read_apply]
  show V c main_arg9 _ = V c main_arg9 j
  refine congrArg _ ?_
  funext a
  apply Fin.ext
  match a with
  | ⟨0, _⟩ => show win2_2.index t (0 : Fin 2) * 256 + 1 * (j 0).val = (j 0).val; rw [e0]; omega
  | ⟨1, _⟩ => show win2_2.index t (1 : Fin 2) * 64 + 1 * (j 1).val = (j 1).val; rw [e1]; omega

theorem blk_wn (c : Dev nD) (t : Fin cfg2.N) : (iblk2 V c 3 t : Vec Ideal S256x64 .f32) = wnArr V c := by
  obtain ⟨-, -, -, -, -, -, e0, e1, -⟩ := idx_facts t
  funext j
  unfold iblk2
  rw [View.read_apply]
  show V c main_arg10 _ = V c main_arg10 j
  refine congrArg _ ?_
  funext a
  apply Fin.ext
  match a with
  | ⟨0, _⟩ => show win2_3.index t (0 : Fin 2) * 256 + 1 * (j 0).val = (j 0).val; rw [e0]; omega
  | ⟨1, _⟩ => show win2_3.index t (1 : Fin 2) * 64 + 1 * (j 1).val = (j 1).val; rw [e1]; omega

theorem blk_b (c : Dev nD) (t : Fin cfg2.N) : (iblk2 V c 4 t : Vec Ideal S64 .f32) = bArr V c := by
  obtain ⟨-, -, -, -, -, -, -, -, e0, -⟩ := idx_facts t
  funext j
  unfold iblk2
  rw [View.read_apply]
  show V c main_arg11 _ = V c main_arg11 j
  refine congrArg _ ?_
  funext a
  apply Fin.ext
  match a with
  | ⟨0, _⟩ => show win2_4.index t (0 : Fin 1) * 64 + 1 * (j 0).val = (j 0).val; rw [e0]; omega

/-- Where the element `(p, q)` of point `t`'s result block sits in the result array. -/
theorem emb_out (t : Fin cfg2.N) (p : Fin 2000) (q : Fin 64) :
    ((cfg2.win 5).blk t).view.emb (ix2 p q) = ix2 (row t p) q := by
  obtain ⟨-, -, -, -, -, -, -, -, -, e0, e1⟩ := idx_facts t
  funext a
  apply Fin.ext
  match a with
  | ⟨0, _⟩ => show win2_5.index t (0 : Fin 2) * 2000 + 1 * p.val = 2000 * t.val + p.val; rw [e0]; omega
  | ⟨1, _⟩ => show win2_5.index t (1 : Fin 2) * 64 + 1 * q.val = q.val; rw [e1]; omega

/-- WHAT POINT `t` WRITES BACK is block `t` of the layer of the entry arrays. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x64) hz2, View.ld_unit_zero (S := S64) hz1]
  rw [blk_ws V c t, blk_wn V c t, blk_b V c t]
  funext j
  obtain ⟨p, q, rfl⟩ : ∃ (p : Fin 2000) (q : Fin 64), j = ix2 p q := ⟨j 0, j 1, eq_ix2 j⟩
  rw [View.read_apply, emb_out t p q]
  refine (pay_apply (iblk2 V c 0 t) (iblk2 V c 1 t) (wsArr V c) (wnArr V c) (bArr V c) p q).trans ?_
  unfold out
  exact Sage.lin_rows (hArr V c) (aArr V c) (iblk2 V c 0 t) (iblk2 V c 1 t) (wsArr V c) (wnArr V c) (bArr V c) (row t p) p q
    (fun k => blk_h V c t p k) (fun k => blk_a V c t p k)

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v49).slice (win2_5.rect t)).set ↔ _
  rw [View.set_slice_whole, Rect.mem_set_unit]
  exact Iff.rfl

/-- Every index of the result array is in the block of the point its row falls in. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, -, -, -, -, -, e0, e1⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 64 ≤ (i 1).val ∧ (i 1).val < win2_5.index t (1 : Fin 2) * 64 + 64; rw [e1]; omega

/-- THE RESULT ARRAY after the region: the layer of the arrays the region was entered with. -/
theorem arr_eq (c : Dev nD) : (dat2 V c).arrAt 5 cfg2.N = out V c :=
  (dat2 V c).arrAt_eq_of_cover 5 (out V c) (fun t _ => flushed_eq V c t) cover

end Cert.KernelIdeal.Layer2

end
-- ==== Proof.KChain.lean ====
/-
  The kernel program's result as ONE function of its twelve arguments.
  Between its three pallas_calls the program runs the same short host stretch three times: the neighbour aggregation
  `agg h` — the rows of `h` gathered at the (wrapped) source node of every edge, added up at the edge's destination node,
  and each destination row scaled by the reciprocal of `max(in-degree, 1)` (`invDeg`, computed once, in the first
  stretch). Region k then applies one layer (`Sage.linRelu`, `Sage.linRelu`, `Sage.lin`) to the features it is handed
  and to their aggregation. So the result is the three layers composed: `Sage.net` with this aggregation.
  Read off the run's fold of boundary contents `W0 … W6`: a host stretch's result buffers by evaluating the stretch
  (`s0_inv`, `s0_agg`, `s1_agg`, `s2_agg`), every buffer a stretch does not write unchanged (`keep0/1/2`), a region's
  result array by the region's value lemma (`Layer0/1/2.arr_eq`, at the contents the region is entered with), every
  buffer that is no array of the region unchanged (`W2_of_ne`, `W4_of_ne`, `W6_of_ne`).
-/
import proofs.«142388_j4020089389331_1_alg».proof.Proof.KernelIdealFrameP
import proofs.«142388_j4020089389331_1_alg».proof.Proof.KernelIdealRunP
import proofs.«142388_j4020089389331_1_alg».proof.Proof.KLayer0
import proofs.«142388_j4020089389331_1_alg».proof.Proof.KLayer1
import proofs.«142388_j4020089389331_1_alg».proof.Proof.KLayer2
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen Cert.KernelIdeal.GenP

/-! ## The aggregation -/

/-- The reciprocal of every node's in-degree clamped below at one: ones scattered and added at the destinations. -/
def invDeg (dst : IVec S800000 32) : FVec Ideal S100000 .f32 :=
  Host.divf (broadcastInDim S100000 ![] bcast_S_S100000 (constant S_ .f32 0x3F800000#32))
    (maximumf
      (Host.scatterAdd scatter_S100000_S800000x1_S800000_n_0_0_1
        (broadcastInDim S100000 ![] bcast_S_S100000 (constant S_ .f32 0x00000000#32))
        (broadcastInDim S800000x1 ![0] bcast_S800000_S800000x1_0 dst)
        (broadcastInDim S800000 ![] bcast_S_S800000 (constant S_ .f32 0x3F800000#32)))
      (broadcastInDim S100000 ![] bcast_S_S100000 (constant S_ .f32 0x3F800000#32)))

/-- The rows of `h` gathered at the sources (a negative index wrapped by the node count), added at the destinations,
    each destination row times its node's `inv`. -/
def aggWith (h : FVec Ideal S100000x256 .f32) (src dst : IVec S800000 32) (inv : FVec Ideal S100000 .f32) :
    FVec Ideal S100000x256 .f32 :=
  mulf
    (Host.scatterAdd scatter_S100000x256_S800000x1_S800000x256_1_0_0_1
      (broadcastInDim S100000x256 ![] bcast_S_S100000x256 (constant S_ .f32 0x00000000#32))
      (broadcastInDim S800000x1 ![0] bcast_S800000_S800000x1_0 dst)
      (Host.gather gather_S100000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src))))
    (broadcastInDim S100000x256 ![0, 1] bcast_S100000x1_S100000x256_0_1
      (broadcastInDim S100000x1 ![0] bcast_S100000_S100000x1_0 inv))

/-- The mean aggregation of the in-neighbours' features. -/
def agg (src dst : IVec S800000 32) (h : FVec Ideal S100000x256 .f32) : FVec Ideal S100000x256 .f32 :=
  aggWith h src dst (invDeg dst)

/-! ## What the host stretches write and keep -/

/-- The references host stretch 0 writes: one per operation. -/
abbrev written0 : List (Ref sig .tc) := [main_cst, main_v0, main_cst_0, main_v1, main_v2, main_v3, main_cst_1, main_v4, main_v5, main_cst_2, main_v6, main_v7, main_c, main_v8, main_v9, main_c_3, main_v10, main_v11, main_v12, main_v13, main_v14, main_cst_4, main_v15, main_v16, main_v17, main_v18, main_v19, main_v20]
theorem writes0 : (hostOps0 : List (HloOp τ sig (Elt Ideal))).Forall fun op => op.writes ⊆ (written0.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
/-- A reference host stretch 0 does not write keeps its contents across it. -/
theorem keep0 (W : Valuation τ sig (Elt Ideal)) (r : Ref sig .tc) (h : r ∉ written0) :
    StableHlo.after hostOps0 W (Proc.devRef .tc r) = W (Proc.devRef .tc r) :=
  StableHlo.after_of_writes_sub hostOps0 W writes0 h

/-- The references host stretch 1 writes: one per operation. -/
abbrev written1 : List (Ref sig .tc) := [main_c_5, main_v22, main_v23, main_c_6, main_v24, main_v25, main_v26, main_v27, main_v28, main_cst_7, main_v29, main_v30, main_v31, main_v32, main_v33, main_v34]
theorem writes1 : (hostOps1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
/-- A reference host stretch 1 does not write keeps its contents across it. -/
theorem keep1 (W : Valuation τ sig (Elt Ideal)) (r : Ref sig .tc) (h : r ∉ written1) :
    StableHlo.after hostOps1 W (Proc.devRef .tc r) = W (Proc.devRef .tc r) :=
  StableHlo.after_of_writes_sub hostOps1 W writes1 h

/-- The references host stretch 2 writes: one per operation. -/
abbrev written2 : List (Ref sig .tc) := [main_c_8, main_v36, main_v37, main_c_9, main_v38, main_v39, main_v40, main_v41, main_v42, main_cst_10, main_v43, main_v44, main_v45, main_v46, main_v47, main_v48]
theorem writes2 : (hostOps2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
/-- A reference host stretch 2 does not write keeps its contents across it. -/
theorem keep2 (W : Valuation τ sig (Elt Ideal)) (r : Ref sig .tc) (h : r ∉ written2) :
    StableHlo.after hostOps2 W (Proc.devRef .tc r) = W (Proc.devRef .tc r) :=
  StableHlo.after_of_writes_sub hostOps2 W writes2 h

/-! ## What the host stretches compute -/

section Stretches
variable (W : Valuation τ sig (Elt Ideal))

theorem s0_inv : StableHlo.after (hostOps0 (F := Ideal)) W (Proc.devRef .tc main_v7) = invDeg (W (Proc.devRef .tc main_arg2)) := by
  dsimp only [hostOps0]
  after_results_simp
  rfl

theorem s0_agg : StableHlo.after (hostOps0 (F := Ideal)) W (Proc.devRef .tc main_v20)
    = agg (W (Proc.devRef .tc main_arg1)) (W (Proc.devRef .tc main_arg2)) (W (Proc.devRef .tc main_arg0)) := by
  dsimp only [hostOps0]
  after_results_simp
  rfl

theorem s1_agg : StableHlo.after (hostOps1 (F := Ideal)) W (Proc.devRef .tc main_v34)
    = aggWith (W (Proc.devRef .tc main_v21)) (W (Proc.devRef .tc main_arg1)) (W (Proc.devRef .tc main_arg2)) (W (Proc.devRef .tc main_v7)) := by
  dsimp only [hostOps1]
  after_results_simp
  rfl

theorem s2_agg : StableHlo.after (hostOps2 (F := Ideal)) W (Proc.devRef .tc main_v48)
    = aggWith (W (Proc.devRef .tc main_v35)) (W (Proc.devRef .tc main_arg1)) (W (Proc.devRef .tc main_arg2)) (W (Proc.devRef .tc main_v7)) := by
  dsimp only [hostOps2]
  after_results_simp
  rfl

end Stretches

/-! ## The fold, read -/

variable (m : (ℓ : Loc nD τ sig) → Buf (Elt Ideal) ℓ) (ρ : Dev nD → PrngReg)

/-- The arguments at their literal types. -/
abbrev xA (c : Dev nD) : FVec Ideal S100000x256 .f32 := m ((c.tc : Thread nD τ).loc main_arg0)
abbrev srcA (c : Dev nD) : IVec S800000 32 := m ((c.tc : Thread nD τ).loc main_arg1)
abbrev dstA (c : Dev nD) : IVec S800000 32 := m ((c.tc : Thread nD τ).loc main_arg2)

/-- The first layer's output. -/
def h1 (c : Dev nD) : FVec Ideal S100000x256 .f32 :=
  Sage.linRelu (xA m c) (agg (srcA m c) (dstA m c) (xA m c)) (m ((c.tc : Thread nD τ).loc main_arg3))
    (m ((c.tc : Thread nD τ).loc main_arg4)) (m ((c.tc : Thread nD τ).loc main_arg5))
/-- The second layer's output. -/
def h2 (c : Dev nD) : FVec Ideal S100000x256 .f32 :=
  Sage.linRelu (h1 m c) (agg (srcA m c) (dstA m c) (h1 m c)) (m ((c.tc : Thread nD τ).loc main_arg6))
    (m ((c.tc : Thread nD τ).loc main_arg7)) (m ((c.tc : Thread nD τ).loc main_arg8))
/-- The third layer's output: the program's result. -/
def h3 (c : Dev nD) : FVec Ideal S100000x64 .f32 :=
  Sage.lin (h2 m c) (agg (srcA m c) (dstA m c) (h2 m c)) (m ((c.tc : Thread nD τ).loc main_arg9))
    (m ((c.tc : Thread nD τ).loc main_arg10)) (m ((c.tc : Thread nD τ).loc main_arg11))

/-- At the first region's entry a reference the first stretch does not write holds its launch contents. -/
theorem W1_keep (c : Dev nD) (r : Ref sig .tc) (h : r ∉ written0) :
    W1 m ρ c (Proc.devRef .tc r) = m ((c.tc : Thread nD τ).loc r) :=
  (keep0 (W0 m ρ c) r h).trans rfl

theorem W1_v7 (c : Dev nD) : W1 m ρ c (Proc.devRef .tc main_v7) = invDeg (dstA m c) := s0_inv (W0 m ρ c)

theorem W1_v20 (c : Dev nD) : W1 m ρ c (Proc.devRef .tc main_v20) = agg (srcA m c) (dstA m c) (xA m c) := s0_agg (W0 m ρ c)

/-- The first region's result array: the first layer. -/
theorem W2_v21 (c : Dev nD) : W2 m ρ c (Proc.devRef .tc main_v21) = h1 m c := by
  refine (W2_arr m ρ c 5).trans ((Layer0.arr_eq (V1 m ρ) c).trans ?_)
  unfold Layer0.out h1
  show Sage.linRelu (W1 m ρ c (Proc.devRef .tc main_arg0)) (W1 m ρ c (Proc.devRef .tc main_v20)) (W1 m ρ c (Proc.devRef .tc main_arg3))
      (W1 m ρ c (Proc.devRef .tc main_arg4)) (W1 m ρ c (Proc.devRef .tc main_arg5)) = _
  rw [W1_v20, W1_keep m ρ c main_arg0 (by decide), W1_keep m ρ c main_arg3 (by decide), W1_keep m ρ c main_arg4 (by decide),
    W1_keep m ρ c main_arg5 (by decide)]

/-- Past the first region, a reference that is neither written by the first stretch nor an array of the region holds
    its launch contents. -/
theorem W2_keep (c : Dev nD) (r : Ref sig .tc) (h : r ∉ written0) (hr : ∀ w, Pipeline.arrRef spec0 w ≠ r) :
    W2 m ρ c (Proc.devRef .tc r) = m ((c.tc : Thread nD τ).loc r) :=
  (W2_of_ne m ρ c r hr).trans (W1_keep m ρ c r h)

theorem W2_v7 (c : Dev nD) : W2 m ρ c (Proc.devRef .tc main_v7) = invDeg (dstA m c) :=
  (W2_of_ne m ρ c main_v7 (by decide)).trans (W1_v7 m ρ c)

theorem W3_keep (c : Dev nD) (r : Ref sig .tc) (h1 : r ∉ written1) (h : r ∉ written0) (hr : ∀ w, Pipeline.arrRef spec0 w ≠ r) :
    W3 m ρ c (Proc.devRef .tc r) = m ((c.tc : Thread nD τ).loc r) :=
  (keep1 (W2 m ρ c) r h1).trans (W2_keep m ρ c r h hr)

theorem W3_v21 (c : Dev nD) : W3 m ρ c (Proc.devRef .tc main_v21) = h1 m c :=
  (keep1 (W2 m ρ c) main_v21 (by decide)).trans (W2_v21 m ρ c)

theorem W3_v7 (c : Dev nD) : W3 m ρ c (Proc.devRef .tc main_v7) = invDeg (dstA m c) :=
  (keep1 (W2 m ρ c) main_v7 (by decide)).trans (W2_v7 m ρ c)

theorem W3_v34 (c : Dev nD) : W3 m ρ c (Proc.devRef .tc main_v34) = agg (srcA m c) (dstA m c) (h1 m c) := by
  refine (s1_agg (W2 m ρ c)).trans ?_
  rw [W2_v21, W2_v7, W2_keep m ρ c main_arg1 (by decide) (by decide), W2_keep m ρ c main_arg2 (by decide) (by decide)]
  rfl

/-- The second region's result array: the second layer. -/
theorem W4_v35 (c : Dev nD) : W4 m ρ c (Proc.devRef .tc main_v35) = h2 m c := by
  refine (W4_arr m ρ c 5).trans ((Layer1.arr_eq (V3 m ρ) c).trans ?_)
  unfold Layer1.out h2
  show Sage.linRelu (W3 m ρ c (Proc.devRef .tc main_v21)) (W3 m ρ c (Proc.devRef .tc main_v34)) (W3 m ρ c (Proc.devRef .tc main_arg6))
      (W3 m ρ c (Proc.devRef .tc main_arg7)) (W3 m ρ c (Proc.devRef .tc main_arg8)) = _
  rw [W3_v21, W3_v34, W3_keep m ρ c main_arg6 (by decide) (by decide) (by decide), W3_keep m ρ c main_arg7 (by decide) (by decide) (by decide),
    W3_keep m ρ c main_arg8 (by decide) (by decide) (by decide)]

theorem W4_keep (c : Dev nD) (r : Ref sig .tc) (h1 : r ∉ written1) (h : r ∉ written0) (hr : ∀ w, Pipeline.arrRef spec0 w ≠ r)
    (hr1 : ∀ w, Pipeline.arrRef spec1 w ≠ r) :
    W4 m ρ c (Proc.devRef .tc r) = m ((c.tc : Thread nD τ).loc r) :=
  (W4_of_ne m ρ c r hr1).trans (W3_keep m ρ c r h1 h hr)

theorem W4_v7 (c : Dev nD) : W4 m ρ c (Proc.devRef .tc main_v7) = invDeg (dstA m c) :=
  (W4_of_ne m ρ c main_v7 (by decide)).trans (W3_v7 m ρ c)

theorem W5_keep (c : Dev nD) (r : Ref sig .tc) (h2 : r ∉ written2) (h1 : r ∉ written1) (h : r ∉ written0)
    (hr : ∀ w, Pipeline.arrRef spec0 w ≠ r) (hr1 : ∀ w, Pipeline.arrRef spec1 w ≠ r) :
    W5 m ρ c (Proc.devRef .tc r) = m ((c.tc : Thread nD τ).loc r) :=
  (keep2 (W4 m ρ c) r h2).trans (W4_keep m ρ c r h1 h hr hr1)

theorem W5_v35 (c : Dev nD) : W5 m ρ c (Proc.devRef .tc main_v35) = h2 m c :=
  (keep2 (W4 m ρ c) main_v35 (by decide)).trans (W4_v35 m ρ c)

theorem W5_v48 (c : Dev nD) : W5 m ρ c (Proc.devRef .tc main_v48) = agg (srcA m c) (dstA m c) (h2 m c) := by
  refine (s2_agg (W4 m ρ c)).trans ?_
  rw [W4_v35, W4_v7, W4_keep m ρ c main_arg1 (by decide) (by decide) (by decide) (by decide),
    W4_keep m ρ c main_arg2 (by decide) (by decide) (by decide) (by decide)]
  rfl

/-- THE RESULT: the third region's result array holds the third layer. -/
theorem W6_v49 (c : Dev nD) : W6 m ρ c (Proc.devRef .tc main_v49) = h3 m c := by
  refine (W6_arr m ρ c 5).trans ((Layer2.arr_eq (V5 m ρ) c).trans ?_)
  unfold Layer2.out h3
  show Sage.lin (W5 m ρ c (Proc.devRef .tc main_v35)) (W5 m ρ c (Proc.devRef .tc main_v48)) (W5 m ρ c (Proc.devRef .tc main_arg9))
      (W5 m ρ c (Proc.devRef .tc main_arg10)) (W5 m ρ c (Proc.devRef .tc main_arg11)) = _
  rw [W5_v35, W5_v48, W5_keep m ρ c main_arg9 (by decide) (by decide) (by decide) (by decide) (by decide),
    W5_keep m ρ c main_arg10 (by decide) (by decide) (by decide) (by decide) (by decide),
    W5_keep m ρ c main_arg11 (by decide) (by decide) (by decide) (by decide) (by decide)]

/-- The kernel program's run: terminates without a fault with the result at the three layers composed, arguments kept. -/
theorem run : θ_run defs (onTc (τ := τ) (main (F := Ideal))) ⟨m, fun _ => 0, ρ⟩ (fun r => ∀ c : Dev nD,
      r.2.mem ((c.tc : Thread nD τ).loc main_v49) = h3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v49 m ρ c), (h c).2⟩) (run_result (F := Ideal) m ρ)

end Cert.KernelIdeal.Chain

end
-- ==== Proof.RefValue.lean ====
/-
  The reference program's result as ONE function of its twelve arguments: the same three layers over the same
  neighbour aggregation as the kernel program's.
  The reference is host operations only. Stage by stage (the generated reading of its run): the aggregation of the input
  features, `h @ W_self + agg @ W_neigh + b` and the maximum with zero — one `Sage.linRelu` (`layer1`); the same over the
  first layer's output (`layer2`); the same without the maximum over the second layer's output (`layer3`). The
  aggregation stages are `agg` by unfolding their definitions (the gather at the wrapped sources, the scatter-add at the
  destinations, the product with the broadcast reciprocal degree); the layer stages are `Sage.host_linRelu` /
  `Sage.host_lin`. Composed: `Sage.net (agg src dst)` of the arguments (`result_eq`), which the run ends holding (`run`).
-/
import proofs.«142388_j4020089389331_1_alg».proof.Proof.Gen.ReferenceIdeal.Run
import proofs.«142388_j4020089389331_1_alg».proof.Proof.Gen.ReferenceIdeal.Read
import proofs.«142388_j4020089389331_1_alg».proof.Proof.Layer

noncomputable section

namespace Cert.ReferenceIdeal.RefValue

open Idealize.ShloMosaic Idealize.ShloMosaic.TcCoe Idealize.SL.Sem
open Cert.ReferenceIdeal Cert.ReferenceIdeal.Gen Cert.ReferenceIdeal.Read

/-! ## The aggregation -/

/-- The reciprocal of every node's in-degree clamped below at one: ones scattered and added at the destinations. -/
def invDeg (dst : IVec S800000 32) : FVec Ideal S100000 .f32 :=
  Host.divf (broadcastInDim S100000 ![] bcast_S_S100000 (constant S_ .f32 0x3F800000#32))
    (maximumf
      (Host.scatterAdd scatter_S100000_S800000x1_S800000_n_0_0_1
        (broadcastInDim S100000 ![] bcast_S_S100000 (constant S_ .f32 0x00000000#32))
        (broadcastInDim S800000x1 ![0] bcast_S800000_S800000x1_0 dst)
        (broadcastInDim S800000 ![] bcast_S_S800000 (constant S_ .f32 0x3F800000#32)))
      (broadcastInDim S100000 ![] bcast_S_S100000 (constant S_ .f32 0x3F800000#32)))

/-- The rows of `h` gathered at the sources (a negative index wrapped by the node count), added at the destinations,
    each destination row times its node's `inv`. -/
def aggWith (h : FVec Ideal S100000x256 .f32) (src dst : IVec S800000 32) (inv : FVec Ideal S100000 .f32) :
    FVec Ideal S100000x256 .f32 :=
  mulf
    (Host.scatterAdd scatter_S100000x256_S800000x1_S800000x256_1_0_0_1
      (broadcastInDim S100000x256 ![] bcast_S_S100000x256 (constant S_ .f32 0x00000000#32))
      (broadcastInDim S800000x1 ![0] bcast_S800000_S800000x1_0 dst)
      (Host.gather gather_S100000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src))))
    (broadcastInDim S100000x256 ![0, 1] bcast_S100000x1_S100000x256_0_1
      (broadcastInDim S100000x1 ![0] bcast_S100000_S100000x1_0 inv))

/-- The mean aggregation of the in-neighbours' features. -/
def agg (src dst : IVec S800000 32) (h : FVec Ideal S100000x256 .f32) : FVec Ideal S100000x256 .f32 :=
  aggWith h src dst (invDeg dst)

/-! ## The stages -/

/-- The first aggregation stage. -/
theorem agg1 (x0 : (⟨S100000x256, .f32⟩ : BufTy).Contents (Elt Ideal)) (x1 x2 : (⟨S800000, .i32⟩ : BufTy).Contents (Elt Ideal)) :
    val_main_v20 (F := Ideal) x0 x1 x2 = agg x1 x2 x0 := rfl

/-- The first layer. -/
theorem layer1 (x0 : (⟨S100000x256, .f32⟩ : BufTy).Contents (Elt Ideal)) (x1 x2 : (⟨S800000, .i32⟩ : BufTy).Contents (Elt Ideal)) (x3 x4 : (⟨S256x256, .f32⟩ : BufTy).Contents (Elt Ideal)) (x5 : (⟨S256, .f32⟩ : BufTy).Contents (Elt Ideal)) :
    val_main_v27 (F := Ideal) x0 x1 x2 x3 x4 x5 = Sage.linRelu x0 (agg x1 x2 x0) x3 x4 x5 := by
  unfold val_main_v27 val_main_v26 val_main_v23 val_main_v21 val_main_v22 val_main_v25 val_main_v24 val_main_call0_v0 val_main_call0_cst
  rw [agg1]
  exact Sage.host_linRelu dot_S100000x256_S256x256_S100000x256_1_0_0_1_n_n rfl none x0 (agg x1 x2 x0) x3 x4 x5
    bcast_S256_S1x256_1 bcast_S1x256_S100000x256_0_1 bcast_S_S100000x256

/-- The second aggregation stage: the aggregation of the first layer's output. -/
theorem agg2 (x0 : (⟨S100000x256, .f32⟩ : BufTy).Contents (Elt Ideal)) (x1 x2 : (⟨S800000, .i32⟩ : BufTy).Contents (Elt Ideal)) (x3 x4 : (⟨S256x256, .f32⟩ : BufTy).Contents (Elt Ideal)) (x5 : (⟨S256, .f32⟩ : BufTy).Contents (Elt Ideal)) :
    val_main_v40 (F := Ideal) x0 x1 x2 x3 x4 x5 = agg x1 x2 (val_main_v27 (F := Ideal) x0 x1 x2 x3 x4 x5) := rfl

/-- The second layer. -/
theorem layer2 (x0 : (⟨S100000x256, .f32⟩ : BufTy).Contents (Elt Ideal)) (x1 x2 : (⟨S800000, .i32⟩ : BufTy).Contents (Elt Ideal)) (x3 x4 : (⟨S256x256, .f32⟩ : BufTy).Contents (Elt Ideal)) (x5 : (⟨S256, .f32⟩ : BufTy).Contents (Elt Ideal)) (x6 x7 : (⟨S256x256, .f32⟩ : BufTy).Contents (Elt Ideal)) (x8 : (⟨S256, .f32⟩ : BufTy).Contents (Elt Ideal)) :
    val_main_v47 (F := Ideal) x0 x1 x2 x3 x4 x5 x6 x7 x8
      = Sage.linRelu (val_main_v27 (F := Ideal) x0 x1 x2 x3 x4 x5) (agg x1 x2 (val_main_v27 (F := Ideal) x0 x1 x2 x3 x4 x5)) x6 x7 x8 := by
  unfold val_main_v47 val_main_v46 val_main_v43 val_main_v41 val_main_v42 val_main_v45 val_main_v44 val_main_call1_v0 val_main_call1_cst
  rw [agg2]
  exact Sage.host_linRelu dot_S100000x256_S256x256_S100000x256_1_0_0_1_n_n rfl none _ _ x6 x7 x8
    bcast_S256_S1x256_1 bcast_S1x256_S100000x256_0_1 bcast_S_S100000x256

/-- The third aggregation stage: the aggregation of the second layer's output. -/
theorem agg3 (x0 : (⟨S100000x256, .f32⟩ : BufTy).Contents (Elt Ideal)) (x1 x2 : (⟨S800000, .i32⟩ : BufTy).Contents (Elt Ideal)) (x3 x4 : (⟨S256x256, .f32⟩ : BufTy).Contents (Elt Ideal)) (x5 : (⟨S256, .f32⟩ : BufTy).Contents (Elt Ideal)) (x6 x7 : (⟨S256x256, .f32⟩ : BufTy).Contents (Elt Ideal)) (x8 : (⟨S256, .f32⟩ : BufTy).Contents (Elt Ideal)) :
    val_main_v60 (F := Ideal) x0 x1 x2 x3 x4 x5 x6 x7 x8 = agg x1 x2 (val_main_v47 (F := Ideal) x0 x1 x2 x3 x4 x5 x6 x7 x8) := rfl

/-- The third layer: no activation. -/
theorem layer3 (x0 : (⟨S100000x256, .f32⟩ : BufTy).Contents (Elt Ideal)) (x1 x2 : (⟨S800000, .i32⟩ : BufTy).Contents (Elt Ideal)) (x3 x4 : (⟨S256x256, .f32⟩ : BufTy).Contents (Elt Ideal)) (x5 : (⟨S256, .f32⟩ : BufTy).Contents (Elt Ideal)) (x6 x7 : (⟨S256x256, .f32⟩ : BufTy).Contents (Elt Ideal)) (x8 : (⟨S256, .f32⟩ : BufTy).Contents (Elt Ideal)) (x9 x10 : (⟨S256x64, .f32⟩ : BufTy).Contents (Elt Ideal)) (x11 : (⟨S64, .f32⟩ : BufTy).Contents (Elt Ideal)) :
    val_main_v66 (F := Ideal) x0 x1 x2 x3 x4 x5 x6 x7 x8 x9 x10 x11
      = Sage.lin (val_main_v47 (F := Ideal) x0 x1 x2 x3 x4 x5 x6 x7 x8) (agg x1 x2 (val_main_v47 (F := Ideal) x0 x1 x2 x3 x4 x5 x6 x7 x8)) x9 x10 x11 := by
  unfold val_main_v66 val_main_v63 val_main_v61 val_main_v62 val_main_v65 val_main_v64
  rw [agg3]
  exact Sage.host_lin dot_S100000x256_S256x64_S100000x64_1_0_0_1_n_n rfl none _ _ x9 x10 x11
    bcast_S64_S1x64_1 bcast_S1x64_S100000x64_0_1

/-- THE RESULT: the three layers composed over the aggregation. -/
theorem result_eq (x0 : (⟨S100000x256, .f32⟩ : BufTy).Contents (Elt Ideal)) (x1 x2 : (⟨S800000, .i32⟩ : BufTy).Contents (Elt Ideal)) (x3 x4 : (⟨S256x256, .f32⟩ : BufTy).Contents (Elt Ideal)) (x5 : (⟨S256, .f32⟩ : BufTy).Contents (Elt Ideal)) (x6 x7 : (⟨S256x256, .f32⟩ : BufTy).Contents (Elt Ideal)) (x8 : (⟨S256, .f32⟩ : BufTy).Contents (Elt Ideal)) (x9 x10 : (⟨S256x64, .f32⟩ : BufTy).Contents (Elt Ideal)) (x11 : (⟨S64, .f32⟩ : BufTy).Contents (Elt Ideal)) :
    val_main_v66 (F := Ideal) x0 x1 x2 x3 x4 x5 x6 x7 x8 x9 x10 x11 = Sage.net (agg x1 x2) x0 x3 x4 x5 x6 x7 x8 x9 x10 x11 := by
  rw [layer3, layer2, layer1]
  rfl

/-- The reference's run: terminates without a fault with the result at the three layers composed, arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = Sage.net (agg (m ((c.tc : Thread nD τ).loc main_arg1)) (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans ((val_main_v66_eq m c).trans (result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))), (h c).2⟩)
    (Cert.ReferenceIdeal.Value.run (F := Ideal) m ρ)

end Cert.ReferenceIdeal.RefValue

end
-- ==== Proof.lean ====
/-
  A three-layer mean-aggregating graph convolution (100000 nodes, 800000 edges, widths 256, 256, 64), as a program of three
  pallas_calls among host stretches, against its host-only reference: equal results on the extended reals.
  Each layer is `h · W_self + agg(h) · W_neigh + b`, the first two followed by the maximum with zero, where `agg(h)` adds
  the rows of `h` at the edges' sources into the edges' destinations and scales each node's row by `1 / max(in-degree, 1)`.
  Both programs compute the aggregation by the SAME host operations, so it is carried as one function (`agg`, the two
  programs' spellings equal by unfolding: `agg_eq`). The kernel program computes each layer block by block — 2000 rows a
  grid point, two products into zero accumulators, changes of float format that are the identity here — and the reference
  by two whole `dot_general`s; at an index both are the same sums over the 256 contracted positions, in the same grouping
  `(self + neighbour) + bias`, so no law of the extended reals beyond reading each operation at its index is needed, and
  the finiteness precondition is never opened.
  Frames: the two kernel programs' are the generated frame, the reference's is its generated run with the result dropped. No ideal rewrite was applied, so `preserves` is `True`.
  Value: the kernel program's run ends with its result at `Chain.h3` (the fold of boundary contents read back, each region
  by its value lemma), the reference's at `Sage.net (agg …)` of the same arguments (its stages read back); the two are one
  term once the arguments' agreement is rewritten.
-/
import proofs.«142388_j4020089389331_1_alg».proof.Defs
import proofs.«142388_j4020089389331_1_alg».proof.Proof.Gen.Kernel
import proofs.«142388_j4020089389331_1_alg».proof.Proof.Gen.Kernel.Skeleton
import proofs.«142388_j4020089389331_1_alg».proof.Proof.KernelLaunchP
import proofs.«142388_j4020089389331_1_alg».proof.Proof.Gen.Kernel.Points
import proofs.«142388_j4020089389331_1_alg».proof.Proof.KernelFrameP
import proofs.«142388_j4020089389331_1_alg».proof.Proof.Gen.KernelIdeal
import proofs.«142388_j4020089389331_1_alg».proof.Proof.Gen.KernelIdeal.Skeleton
import proofs.«142388_j4020089389331_1_alg».proof.Proof.KernelIdealLaunchP
import proofs.«142388_j4020089389331_1_alg».proof.Proof.Gen.KernelIdeal.Points
import proofs.«142388_j4020089389331_1_alg».proof.Proof.KernelIdealFrameP
import proofs.«142388_j4020089389331_1_alg».proof.Proof.Gen.ReferenceIdeal
import proofs.«142388_j4020089389331_1_alg».proof.Proof.Gen.Pre_finite_inputs
import proofs.«142388_j4020089389331_1_alg».proof.Proof.KChain
import proofs.«142388_j4020089389331_1_alg».proof.Proof.RefValue
import Idealize.ShloMosaic.Adequacy
import Idealize.ShloMosaic.Init

noncomputable section

namespace Cert.Proof

open Idealize.ShloMosaic Idealize.SL.Sem

/-- The two programs spell the neighbour aggregation with the same operations over records of the same fields. -/
theorem agg_eq (src dst : IVec Cert.KernelIdeal.S800000 32) (h : FVec Ideal Cert.KernelIdeal.S100000x256 .f32) :
    Cert.KernelIdeal.Chain.agg src dst h = Cert.ReferenceIdeal.RefValue.agg src dst h := rfl

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel program's result at the three layers composed over its aggregation, the reference's at
    the three layers composed over its own spelling of the same aggregation, of arguments that agree. -/
theorem algebraic : Cert.algebraic_KernelIdeal_ReferenceIdeal := by
  intro m ρ m' ρ' _ hagree
  refine ⟨fun c => Cert.KernelIdeal.Chain.h3 m c, Cert.KernelIdeal.Chain.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11⟩ := hagree c
  rw [e0, e1, e2, e3, e4, e5, e6, e7, e8, e9, e10, e11]
  unfold Cert.KernelIdeal.Chain.h3 Cert.KernelIdeal.Chain.h2 Cert.KernelIdeal.Chain.h1 Cert.Sage.net
  simp only [agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
